-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S_ : Shape := ⟨0, ![]⟩
abbrev S8192 : Shape := ⟨1, ![8192]⟩
abbrev S8192x1 : Shape := ⟨2, ![8192, 1]⟩
abbrev S4096 : Shape := ⟨1, ![4096]⟩
abbrev S4096x1 : Shape := ⟨2, ![4096, 1]⟩
abbrev S1024x1024 : Shape := ⟨2, ![1024, 1024]⟩
abbrev S1024x1 : Shape := ⟨2, ![1024, 1]⟩
abbrev S1x1024 : Shape := ⟨2, ![1, 1024]⟩

abbrev nBuf : Space → Nat
  | .hbm => 47
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S4096x4096, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S_, .f32⟩
  | .hbm, ⟨42, _⟩ => ⟨S4096x4096, .f32⟩
  | .hbm, ⟨43, _⟩ => ⟨S4096x4096, .f32⟩
  | .hbm, ⟨44, _⟩ => ⟨S8192x4096, .bf16⟩
  | .hbm, ⟨45, _⟩ => ⟨S4096x4096, .bf16⟩
  | .hbm, ⟨46, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_cst_3 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_cst_6 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_7 : Ref sig .tc := ⟨.hbm, 36, rfl⟩
abbrev main_cst_8 : Ref sig .tc := ⟨.hbm, 37, rfl⟩
abbrev main_call3_v0 : Ref sig .tc := ⟨.hbm, 38, rfl⟩
abbrev main_call3_v1 : Ref sig .tc := ⟨.hbm, 39, rfl⟩
abbrev main_call3_v2 : Ref sig .tc := ⟨.hbm, 40, rfl⟩
abbrev main_call3_v3 : Ref sig .tc := ⟨.hbm, 41, rfl⟩
abbrev main_call3_v4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S_S8192x4096 : S_.BroadcastsInDim S8192x4096 (![] : Fin 0 → Fin S8192x4096.rank)
  reducesTo_S4096x4096_S4096_d1 : S4096x4096.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  transposes_S1024x1_p1_0_S1x1024 : S1024x1.Transposes [1, 0] S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S4096x1.size a
  hwx0_3 : ∀ i : grid0.Coords, EltTy.bits .f32 = 32 ∨ (Rect.block (s := S4096x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x4096.size a
  hwx0_4 : ∀ i : grid0.Coords, EltTy.bits .f32 = 32 ∨ (Rect.block (s := S8192x4096) S1024x1024.size (cc0_transform_4 i) (hinb0_4 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v22) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩
abbrev S8192 : Shape := ⟨1, ![8192]⟩
abbrev S8192x1 : Shape := ⟨2, ![8192, 1]⟩
abbrev S4096 : Shape := ⟨1, ![4096]⟩
abbrev S4096x1 : Shape := ⟨2, ![4096, 1]⟩
abbrev S1x4096 : Shape := ⟨2, ![1, 4096]⟩

abbrev nBuf : Space → Nat
  | .hbm => 50
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S4096x4096, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S_, .f32⟩
  | .hbm, ⟨42, _⟩ => ⟨S4096x4096, .f32⟩
  | .hbm, ⟨43, _⟩ => ⟨S4096x4096, .f32⟩
  | .hbm, ⟨44, _⟩ => ⟨S8192x4096, .f32⟩
  | .hbm, ⟨45, _⟩ => ⟨S8192x4096, .f32⟩
  | .hbm, ⟨46, _⟩ => ⟨S8192x4096, .f32⟩
  | .hbm, ⟨47, _⟩ => ⟨S1x4096, .f32⟩
  | .hbm, ⟨48, _⟩ => ⟨S8192x4096, .f32⟩
  | .hbm, ⟨49, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_cst_3 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_cst_6 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_7 : Ref sig .tc := ⟨.hbm, 36, rfl⟩
abbrev main_cst_8 : Ref sig .tc := ⟨.hbm, 37, rfl⟩
abbrev main_call3_v0 : Ref sig .tc := ⟨.hbm, 38, rfl⟩
abbrev main_call3_v1 : Ref sig .tc := ⟨.hbm, 39, rfl⟩
abbrev main_call3_v2 : Ref sig .tc := ⟨.hbm, 40, rfl⟩
abbrev main_call3_v3 : Ref sig .tc := ⟨.hbm, 41, rfl⟩
abbrev main_call3_v4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]

class Facts₀ : Prop where
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S_S8192x4096 : S_.BroadcastsInDim S8192x4096 (![] : Fin 0 → Fin S8192x4096.rank)
  reducesTo_S4096x4096_S4096_d1 : S4096x4096.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  transposes_S4096x1_S1x4096_1_0 : S4096x1.Transposes [1, 0] S1x4096
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Pieces.lean ====
/-
  What one grid point of the quantized matmul leaves behind, read back as plain vector terms.

  The body at a grid point (i, j, k) does three things in order: at k = 0 it stores a zero block into the f32
  accumulator; at every k it loads the accumulator, adds the product of the point's two bf16 blocks (contracted over
  their shared K axis) and stores the sum back; at k = 3 it loads the accumulator once more, scales row p by the
  row scale of the left operand and column q by the row scale of the right operand, and stores the result into the
  output block. So, with `prod a b acc = acc + a · bᵀ` (the term `k0_pay2`), `zero` (`k0_pay1`) and
  `scale sa sb acc` (`k0_pay3`):

    k = 0      accumulator ends at  prod a b zero
    k = 1, 2   accumulator ends at  prod a b (what the point before left)
    k = 3      accumulator ends at  prod a b (what the point before left),
               output block at      scale sa sb (that same accumulator).

  Each statement below is that sentence for one case of the frame's run: the run's stores cover the buffer, so what
  the buffer holds is the last store's value, and the loads in it read back whole buffers.
-/
import proofs.«177226_j42520176230457_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The block origin, as the constant-zero offset function. -/
theorem origin_zero : (![0, 0] : Fin 2 → Nat) = fun _ => 0 := funext fun a => by fin_cases a <;> rfl

/-- k = 0: the accumulator is reset and then receives the first product. -/
theorem acc_first (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 : Vec F S1024x1024 .bf16) (x1 : Vec F S1024x1024 .bf16) (x2 : Vec F S1024x1 .f32) (x3 : Vec F S1024x1 .f32) :
    sout0_A_0 c i arg3 harg3 arg4 harg4 arg5 harg5 arg6 harg6 arg7 harg7 arg8 harg8 hc0 hc1 x0 x1 x2 x3 = k0_pay2 x0 x1 (k0_pay1 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x1024) origin_zero, View.readCov_unit_zero (S := S1024x1024) _ origin_zero]
  simp only [View.readAt_eq_ld, harg3.read_unread, harg4.read_unread, View.ld_unit_zero (S := S1024x1024) origin_zero]

/-- k = 1, 2: the accumulator receives the point's product on top of what it held. -/
theorem acc_middle (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i)
    (x0 : Vec F S1024x1024 .bf16) (x1 : Vec F S1024x1024 .bf16) (x2 : Vec F S1024x1 .f32) (x3 : Vec F S1024x1 .f32) (xs0 : Vec F S1024x1024 .f32) :
    sout0_B_0 c i arg3 harg3 arg4 harg4 arg5 harg5 arg6 harg6 arg7 harg7 arg8 harg8 hc0 hc1 x0 x1 x2 x3 xs0 = k0_pay2 x0 x1 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero origin_zero]
  simp only [View.readAt_eq_ld, harg3.read_unread, harg4.read_unread, harg8.read_unread, View.ld_unit_zero (S := S1024x1024) origin_zero]

/-- k = 3: the accumulator receives the last product … -/
theorem acc_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x1024 .bf16) (x1 : Vec F S1024x1024 .bf16) (x2 : Vec F S1024x1 .f32) (x3 : Vec F S1024x1 .f32) (xs0 : Vec F S1024x1024 .f32) :
    sout0_C_0 c i arg3 harg3 arg4 harg4 arg5 harg5 arg6 harg6 arg7 harg7 arg8 harg8 hc0 hc1 x0 x1 x2 x3 xs0 = k0_pay2 x0 x1 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero origin_zero]
  simp only [View.readAt_eq_ld, harg3.read_unread, harg4.read_unread, harg8.read_unread, View.ld_unit_zero (S := S1024x1024) origin_zero]

/-- … and the output block is that accumulator, scaled by the two operands' row scales. -/
theorem out_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x1024 .bf16) (x1 : Vec F S1024x1024 .bf16) (x2 : Vec F S1024x1 .f32) (x3 : Vec F S1024x1 .f32) (xs0 : Vec F S1024x1024 .f32) :
    out0_C_4 c i arg3 harg3 arg4 harg4 arg5 harg5 arg6 harg6 arg7 harg7 arg8 harg8 hc0 hc1 x0 x1 x2 x3 xs0 = k0_pay3 x2 x3 (k0_pay2 x0 x1 xs0) := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero origin_zero]
  simp only [View.readAt_eq_ld, harg3.read_unread, harg4.read_unread, harg5.read_unread, harg6.read_unread, harg8.read_unread,
    View.readCov_unit_zero (S := S1024x1024) _ origin_zero,
    View.ld_unit_zero (S := S1024x1024) origin_zero, View.ld_unit_zero (S := S1024x1) origin_zero]

end Cert.KernelIdeal.Pieces

end
-- ==== Proof.Payload.lean ====
/-
  The three vector terms of one grid point, read entry by entry over the extended reals.

  With p, q ranging over a 1024 × 1024 block:
    zero            (p, q) = 0
    prod a b acc    (p, q) = acc (p, q) + ∑ κ < 1024, a (p, κ) · b (q, κ)      (both operands contracted over their
                                                                               second axis: the right one is used transposed)
    scale sa sb acc (p, q) = (acc (p, q) · sa (p, 0)) · sb (q, 0)               (sa broadcast along columns; sb transposed
                                                                               to a row and broadcast along rows)
  Changes of float format do not appear: over the extended reals they are the identity.
-/
import proofs.«177226_j42520176230457_1_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Payload

open Cert.KernelIdeal Cert.KernelIdeal.Gen

/-- The reset value is zero everywhere. -/
theorem zero_apply (j : S1024x1024.Idx) : k0_pay1 (F := Ideal) j = 0 := by
  unfold k0_pay1
  simp only [shapeCast_self]
  show Ideal.ofBits .f32 0x00000000#32 = 0
  exact Ideal.ofBits_zero_f32

/-! The product's operand indices: at output (p, q) and contraction position κ the left operand is read at (p, κ)
    and the right operand at (q, κ). -/

theorem lhs_row (i : S1024x1024.Idx) (k : dot_S1024x1024_S1024x1024_S1024x1024_1_1_0_0_n_n.contr.Idx) :
    (dot_S1024x1024_S1024x1024_S1024x1024_1_1_0_0_n_n.lhsIdx i k 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_col (i : S1024x1024.Idx) (k : dot_S1024x1024_S1024x1024_S1024x1024_1_1_0_0_n_n.contr.Idx) :
    (dot_S1024x1024_S1024x1024_S1024x1024_1_1_0_0_n_n.lhsIdx i k 1).val = (k ⟨0, by decide⟩).val :=
  dot_S1024x1024_S1024x1024_S1024x1024_1_1_0_0_n_n.lhsIdx_val_of_single rfl i k
theorem rhs_row (i : S1024x1024.Idx) (k : dot_S1024x1024_S1024x1024_S1024x1024_1_1_0_0_n_n.contr.Idx) :
    (dot_S1024x1024_S1024x1024_S1024x1024_1_1_0_0_n_n.rhsIdx i k 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_col (i : S1024x1024.Idx) (k : dot_S1024x1024_S1024x1024_S1024x1024_1_1_0_0_n_n.contr.Idx) :
    (dot_S1024x1024_S1024x1024_S1024x1024_1_1_0_0_n_n.rhsIdx i k 1).val = (k ⟨0, by decide⟩).val :=
  dot_S1024x1024_S1024x1024_S1024x1024_1_1_0_0_n_n.rhsIdx_val_of_single rfl i k

/-- The block product into a zero accumulator is the row-by-row inner product. -/
theorem matmul_zero_apply (a b : S1024x1024.Idx → EReal) (p q : Fin 1024) :
    matmul (F := Ideal) (φ₁ := .bf16) (φ₂ := .bf16) dot_S1024x1024_S1024x1024_S1024x1024_1_1_0_0_n_n none a b (constant S1024x1024 .f32 0x00000000#32) (ix2 p q)
      = ∑ κ : Fin 1024, a (ix2 p κ) * b (ix2 q κ) := by
  show FloatOps.matmul (F := Ideal) (φ₁ := .bf16) (φ₂ := .bf16) dot_S1024x1024_S1024x1024_S1024x1024_1_1_0_0_n_n none a b (constant S1024x1024 .f32 0x00000000#32) (ix2 p q) = _
  rw [Ideal.matmul_constant_zero_apply, ← Equiv.sum_comp (contrEquiv1 dot_S1024x1024_S1024x1024_S1024x1024_1_1_0_0_n_n 1024 rfl rfl).symm]
  refine Finset.sum_congr rfl fun κ _ => ?_
  have hκ := contrEquiv1_symm_val dot_S1024x1024_S1024x1024_S1024x1024_1_1_0_0_n_n 1024 rfl rfl κ
  have el : dot_S1024x1024_S1024x1024_S1024x1024_1_1_0_0_n_n.lhsIdx (ix2 p q) ((contrEquiv1 dot_S1024x1024_S1024x1024_S1024x1024_1_1_0_0_n_n 1024 rfl rfl).symm κ) = ix2 p κ := funext fun d => Fin.ext (by
    match d with
    | ⟨0, _⟩ => exact lhs_row _ _
    | ⟨1, _⟩ => exact (lhs_col _ _).trans hκ)
  have er : dot_S1024x1024_S1024x1024_S1024x1024_1_1_0_0_n_n.rhsIdx (ix2 p q) ((contrEquiv1 dot_S1024x1024_S1024x1024_S1024x1024_1_1_0_0_n_n 1024 rfl rfl).symm κ) = ix2 q κ := funext fun d => Fin.ext (by
    match d with
    | ⟨0, _⟩ => exact rhs_row _ _
    | ⟨1, _⟩ => exact (rhs_col _ _).trans hκ)
  rw [el, er]

/-- One accumulation step, entry by entry. -/
theorem prod_apply (a b : Vec Ideal S1024x1024 .bf16) (acc : Vec Ideal S1024x1024 .f32) (p q : Fin 1024) :
    k0_pay2 (F := Ideal) a b acc (ix2 p q) = acc (ix2 p q) + ∑ κ : Fin 1024, a (ix2 p κ) * b (ix2 q κ) := by
  unfold k0_pay2
  simp only [shapeCast_self]
  show acc (ix2 p q) + matmul (F := Ideal) (φ₁ := .bf16) (φ₂ := .bf16) dot_S1024x1024_S1024x1024_S1024x1024_1_1_0_0_n_n none a b (constant S1024x1024 .f32 0x00000000#32) (ix2 p q) = _
  rw [matmul_zero_apply]

/-- A column vector broadcast along the columns of the block reads its row's entry. -/
theorem col_bcast_apply (s : S1024x1.Idx → EReal) (p q : Fin 1024) :
    broadcastTo S1024x1024 s broadcasts_S1024x1_S1024x1024 (ix2 p q) = s (ix2 p 0) :=
  broadcastTo_apply s broadcasts_S1024x1_S1024x1024 (ix2 p q) (ix2 p 0) (fun d => match d with
    | ⟨0, _⟩ => by show p.val = if (1024 : Nat) = 1 then 0 else p.val; rw [if_neg (by decide)]
    | ⟨1, _⟩ => by show 0 = if (1 : Nat) = 1 then 0 else q.val; rw [if_pos rfl])

/-- A column vector turned into a row and broadcast along the rows of the block reads its column's entry. -/
theorem row_bcast_apply (s : S1024x1.Idx → EReal) (p q : Fin 1024) :
    broadcastTo S1024x1024 (transpose S1x1024 [1, 0] s transposes_S1024x1_p1_0_S1x1024) broadcasts_S1x1024_S1024x1024 (ix2 p q) = s (ix2 q 0) := by
  rw [broadcastTo_apply _ broadcasts_S1x1024_S1024x1024 (ix2 p q) (ix2 (0 : Fin 1) q) (fun d => match d with
    | ⟨0, _⟩ => by show 0 = if (1 : Nat) = 1 then 0 else p.val; rw [if_pos rfl]
    | ⟨1, _⟩ => by show q.val = if (1024 : Nat) = 1 then 0 else q.val; rw [if_neg (by decide)])]
  exact transpose_apply [1, 0] s transposes_S1024x1_p1_0_S1x1024 (ix2 (0 : Fin 1) q) (ix2 q 0) (fun d => match d with
    | ⟨0, _⟩ => rfl
    | ⟨1, _⟩ => rfl)

/-- The epilogue, entry by entry. -/
theorem scale_apply (sa sb : Vec Ideal S1024x1 .f32) (acc : Vec Ideal S1024x1024 .f32) (p q : Fin 1024) :
    k0_pay3 (F := Ideal) sa sb acc (ix2 p q) = (acc (ix2 p q) * sa (ix2 p 0)) * sb (ix2 q 0) := by
  unfold k0_pay3
  simp only [shapeCast_self]
  show (acc (ix2 p q) * broadcastTo S1024x1024 sa broadcasts_S1024x1_S1024x1024 (ix2 p q))
      * broadcastTo S1024x1024 (transpose S1x1024 [1, 0] sb transposes_S1024x1_p1_0_S1x1024) broadcasts_S1x1024_S1024x1024 (ix2 p q) = _
  rw [col_bcast_apply, row_bcast_apply]

end Cert.KernelIdeal.Payload

end
-- ==== Proof.BlockSum.lean ====
/-
  Regrouping a finite sum into consecutive blocks, in any additive commutative monoid (the extended reals among
  them: no subtraction, no cancellation, so nothing here asks for finiteness).

  A contraction over `K = n · B` terms accumulated block by block — the first block, then each next block added to
  what is already there — is the contraction in one piece:
    `∑ κ < n·B, f κ  =  ∑ b < n, ∑ j < B, f (b·B + j)`.
  `partialBlocks f B r` is the running value after block `r` (blocks `0 … r`), so the step from `r` to `r + 1` adds
  block `r + 1`, and after the last block the running value is the whole sum.
-/
import Mathlib.Algebra.BigOperators.Fin
import Mathlib.Algebra.BigOperators.Intervals

namespace BlockSum

open Finset

variable {M : Type*} [AddCommMonoid M]

/-- Block `b` of `f`, of width `B`: the terms `f (b·B), …, f (b·B + B - 1)`. -/
def block (f : ℕ → M) (B b : ℕ) : M := ∑ j : Fin B, f (b * B + j.val)

/-- The running value after block `r`: blocks `0` to `r` added up. -/
def partialBlocks (f : ℕ → M) (B r : ℕ) : M := ∑ b ∈ range (r + 1), block f B b

theorem partialBlocks_zero (f : ℕ → M) (B : ℕ) : partialBlocks f B 0 = block f B 0 := by
  unfold partialBlocks
  rw [sum_range_one]

theorem partialBlocks_succ (f : ℕ → M) (B r : ℕ) :
    partialBlocks f B (r + 1) = partialBlocks f B r + block f B (r + 1) := by
  unfold partialBlocks
  rw [sum_range_succ]

/-- `n` blocks of width `B` make up the first `n·B` terms. -/
theorem sum_range_blocks (f : ℕ → M) (B : ℕ) : ∀ n : ℕ, ∑ b ∈ range n, block f B b = ∑ κ ∈ range (n * B), f κ
  | 0 => by simp
  | n + 1 => by
    rw [sum_range_succ, sum_range_blocks f B n, Nat.succ_mul, sum_range_add]
    congr 1
    unfold block
    rw [Fin.sum_univ_eq_sum_range (fun j => f (n * B + j)) B]

/-- After the last of `n + 1` blocks the running value is the sum of all `(n + 1)·B` terms, here as a sum over `Fin`. -/
theorem partialBlocks_last (f : ℕ → M) (B n K : ℕ) (hK : (n + 1) * B = K) :
    partialBlocks f B n = ∑ k : Fin K, f k.val := by
  subst hK
  unfold partialBlocks
  rw [sum_range_blocks, Fin.sum_univ_eq_sum_range (fun κ => f κ)]

end BlockSum
-- ==== Proof.Dequant.lean ====
/-
  The specification: the dequantized product of two row-quantized matrices.

  For a left operand quantized to `qa` (8192 × 4096) with one scale per row `sa` (8192 × 1), and a right operand
  quantized to `qb` (4096 × 4096, stored row per output column) with one scale per row `sb` (4096 × 1), the result is

      deq (r, c) = ((∑ κ < 4096, qa (r, κ) · qb (c, κ)) · sa (r, 0)) · sb (c, 0).

  The tiled computation reaches the inner sum in four blocks of 1024 terms, one per step along the contraction axis.
  To speak of "row r of the array, columns b·1024 … b·1024 + 1023" without carrying bounds through every line, a
  matrix is also read at natural-number coordinates (`ext`, zero outside the array); inside the array that is the
  matrix itself (`ext_of_lt`), and the four blocks add up to the whole inner sum (`blocks_total`).
-/
import Idealize.ShloMosaic.Lib.ValueIdx
import Mathlib.Data.EReal.Basic
import proofs.«177226_j42520176230457_1_alg».proof.Proof.BlockSum

noncomputable section

namespace Dequant

open Idealize.ShloMosaic Idealize.ShloMosaic.ValueIdx

/-- A matrix read at natural-number coordinates: its entry inside the array, zero outside. -/
def ext {n0 n1 : ℕ} (x : (⟨2, ![n0, n1]⟩ : Shape).Idx → EReal) (r κ : ℕ) : EReal :=
  if h : r < n0 ∧ κ < n1 then x (ix2 ⟨r, h.1⟩ ⟨κ, h.2⟩) else 0

theorem ext_of_lt {n0 n1 : ℕ} (x : (⟨2, ![n0, n1]⟩ : Shape).Idx → EReal) (r : Fin n0) (κ : Fin n1) :
    ext x r.val κ.val = x (ix2 r κ) := by
  unfold ext
  rw [dif_pos ⟨r.isLt, κ.isLt⟩]

theorem ext_eq {n0 n1 : ℕ} (x : (⟨2, ![n0, n1]⟩ : Shape).Idx → EReal) (r κ : ℕ) (hr : r < n0) (hκ : κ < n1) :
    ext x r κ = x (ix2 ⟨r, hr⟩ ⟨κ, hκ⟩) := by
  unfold ext
  rw [dif_pos ⟨hr, hκ⟩]

/-- Term `κ` of the inner product of row `r` of `qa` with row `c` of `qb`. -/
def term (qa : (⟨2, ![8192, 4096]⟩ : Shape).Idx → EReal) (qb : (⟨2, ![4096, 4096]⟩ : Shape).Idx → EReal)
    (r c κ : ℕ) : EReal :=
  ext qa r κ * ext qb c κ

/-- The dequantized product. -/
def deq (qa : (⟨2, ![8192, 4096]⟩ : Shape).Idx → EReal) (qb : (⟨2, ![4096, 4096]⟩ : Shape).Idx → EReal)
    (sa : (⟨2, ![8192, 1]⟩ : Shape).Idx → EReal) (sb : (⟨2, ![4096, 1]⟩ : Shape).Idx → EReal) :
    (⟨2, ![8192, 4096]⟩ : Shape).Idx → EReal :=
  fun i => ((∑ κ : Fin 4096, qa (ix2 (i 0) κ) * qb (ix2 (i 1) κ)) * sa (ix2 (i 0) 0)) * sb (ix2 (i 1) 0)

/-- Four blocks of 1024 terms are the whole inner product. -/
theorem blocks_total (qa : (⟨2, ![8192, 4096]⟩ : Shape).Idx → EReal) (qb : (⟨2, ![4096, 4096]⟩ : Shape).Idx → EReal)
    (r : Fin 8192) (c : Fin 4096) :
    BlockSum.partialBlocks (term qa qb r.val c.val) 1024 3 = ∑ κ : Fin 4096, qa (ix2 r κ) * qb (ix2 c κ) := by
  rw [BlockSum.partialBlocks_last _ 1024 3 4096 rfl]
  refine Finset.sum_congr rfl fun κ _ => ?_
  unfold term
  rw [ext_of_lt, ext_of_lt]

end Dequant

end
-- ==== Proof.Tiles.lean ====
/-
  The tiled kernel computes the dequantized product.

  The grid is 8 × 4 × 4, walked row-major: point t is (i, j, k) = (t / 16, t / 4 mod 4, t mod 4). At that point the
  body sees rows i·1024 … of the quantized left operand and rows j·1024 … of the quantized right operand, both at
  contraction positions k·1024 …, and the matching slices of the two scale columns. The innermost axis k is the
  contraction: the f32 accumulator is reset at k = 0 and gains one block of 1024 products per step, so after the body
  at point t its entry (p, q) is the sum of blocks 0 … k of the inner product of row i·1024 + p of the left operand
  with row j·1024 + q of the right operand (`acc_eq`, by induction along the grid: a reset point starts the sum
  afresh, every other point adds its block to what the point before left). At k = 3 the sum is complete — four blocks
  of 1024 are all 4096 terms — and the body writes it, scaled by the two rows' scales, into output block (i, j); only
  those points write the output back. The 32 blocks (i, j) tile the 8192 × 4096 result, so the result array ends
  holding the dequantized product everywhere.
-/
import proofs.«177226_j42520176230457_1_alg».proof.Proof.Gen.KernelIdeal.Value
import proofs.«177226_j42520176230457_1_alg».proof.Proof.Pieces
import proofs.«177226_j42520176230457_1_alg».proof.Proof.Payload
import proofs.«177226_j42520176230457_1_alg».proof.Proof.Dequant
import Idealize.ShloMosaic.Lib.Pipeline.Value
import Idealize.ShloMosaic.Lib.ValueIdx

noncomputable section

open Idealize.ShloMosaic Idealize.ShloMosaic.TcCoe Idealize.ShloMosaic.ValueIdx Idealize.SL.Sem
open Idealize.ShloMosaic.Pipeline (Dat)

namespace Cert.KernelIdeal.Tiles

open Cert.KernelIdeal Cert.KernelIdeal.Gen

variable (m : (ℓ : Loc nD τ sig) → Buf (Elt Ideal) ℓ) (ρ : Dev nD → PrngReg)

/-- The four arrays the region reads, as it finds them: the two quantized operands and their row scales. -/
abbrev qa (c : Dev nD) : (⟨2, ![8192, 4096]⟩ : Shape).Idx → EReal := V m c main_v22
abbrev qb (c : Dev nD) : (⟨2, ![4096, 4096]⟩ : Shape).Idx → EReal := V m c main_v23
abbrev sa (c : Dev nD) : (⟨2, ![8192, 1]⟩ : Shape).Idx → EReal := V m c main_v6
abbrev sb (c : Dev nD) : (⟨2, ![4096, 1]⟩ : Shape).Idx → EReal := V m c main_v17

/-! Point `t` of the 8 × 4 × 4 grid, counted row-major, is (i, j, k) = (t / 16, t / 4 mod 4, t mod 4). Each window's
    block index at `t`, decided once over the 128 points: -/

theorem idx_qa : ∀ t : Fin cfg0.N, win0_0.index t 0 = t.val / 16 ∧ win0_0.index t 1 = t.val % 4 :=
  (by decide +kernel : ∀ t : Fin grid0.N, _)
theorem idx_qb : ∀ t : Fin cfg0.N, win0_1.index t 0 = t.val / 4 % 4 ∧ win0_1.index t 1 = t.val % 4 :=
  (by decide +kernel : ∀ t : Fin grid0.N, _)
theorem idx_sa : ∀ t : Fin cfg0.N, win0_2.index t 0 = t.val / 16 ∧ win0_2.index t 1 = 0 :=
  (by decide +kernel : ∀ t : Fin grid0.N, _)
theorem idx_sb : ∀ t : Fin cfg0.N, win0_3.index t 0 = t.val / 4 % 4 ∧ win0_3.index t 1 = 0 :=
  (by decide +kernel : ∀ t : Fin grid0.N, _)
theorem idx_out : ∀ t : Fin cfg0.N, win0_4.index t 0 = t.val / 16 ∧ win0_4.index t 1 = t.val / 4 % 4 :=
  (by decide +kernel : ∀ t : Fin grid0.N, _)

/-- The left operand's block at `t`: rows `i·1024 …`, contraction positions `k·1024 …`. -/
theorem qa_block (c : Dev nD) (t : Fin cfg0.N) (p κ : Fin 1024) :
    (iblk m c 0 t : Vec Ideal S1024x1024 .bf16) (ix2 p κ)
      = Dequant.ext (qa m c) (t.val / 16 * 1024 + p.val) (t.val % 4 * 1024 + κ.val) := by
  have hN : t.val < 128 := lt_of_lt_of_eq t.isLt (show cfg0.N = 128 from N_0)
  have hp := p.isLt
  have hκ := κ.isLt
  rw [Dequant.ext_eq (qa m c) _ _ (by omega) (by omega)]
  unfold iblk
  rw [View.read_apply]
  show V m c main_v22 _ = V m c main_v22 _
  congr 1
  funext a
  apply Fin.ext
  match a with
  | ⟨0, _⟩ => show win0_0.index t 0 * 1024 + 1 * p.val = t.val / 16 * 1024 + p.val; rw [(idx_qa t).1]; omega
  | ⟨1, _⟩ => show win0_0.index t 1 * 1024 + 1 * κ.val = t.val % 4 * 1024 + κ.val; rw [(idx_qa t).2]; omega

/-- The right operand's block at `t`: rows `j·1024 …`, contraction positions `k·1024 …`. -/
theorem qb_block (c : Dev nD) (t : Fin cfg0.N) (q κ : Fin 1024) :
    (iblk m c 1 t : Vec Ideal S1024x1024 .bf16) (ix2 q κ)
      = Dequant.ext (qb m c) (t.val / 4 % 4 * 1024 + q.val) (t.val % 4 * 1024 + κ.val) := by
  have hN : t.val < 128 := lt_of_lt_of_eq t.isLt (show cfg0.N = 128 from N_0)
  have hq := q.isLt
  have hκ := κ.isLt
  rw [Dequant.ext_eq (qb m c) _ _ (by omega) (by omega)]
  unfold iblk
  rw [View.read_apply]
  show V m c main_v23 _ = V m c main_v23 _
  congr 1
  funext a
  apply Fin.ext
  match a with
  | ⟨0, _⟩ => show win0_1.index t 0 * 1024 + 1 * q.val = t.val / 4 % 4 * 1024 + q.val; rw [(idx_qb t).1]; omega
  | ⟨1, _⟩ => show win0_1.index t 1 * 1024 + 1 * κ.val = t.val % 4 * 1024 + κ.val; rw [(idx_qb t).2]; omega

/-- The left scales' block at `t`: rows `i·1024 …` of the one column. -/
theorem sa_block (c : Dev nD) (t : Fin cfg0.N) (p : Fin 1024) :
    (iblk m c 2 t : Vec Ideal S1024x1 .f32) (ix2 p 0) = Dequant.ext (sa m c) (t.val / 16 * 1024 + p.val) 0 := by
  have hN : t.val < 128 := lt_of_lt_of_eq t.isLt (show cfg0.N = 128 from N_0)
  have hp := p.isLt
  rw [Dequant.ext_eq (sa m c) _ _ (by omega) (by omega)]
  unfold iblk
  rw [View.read_apply]
  show V m c main_v6 _ = V m c main_v6 _
  congr 1
  funext a
  apply Fin.ext
  match a with
  | ⟨0, _⟩ => show win0_2.index t 0 * 1024 + 1 * p.val = t.val / 16 * 1024 + p.val; rw [(idx_sa t).1]; omega
  | ⟨1, _⟩ => show win0_2.index t 1 * 1 + 1 * 0 = 0; rw [(idx_sa t).2]

/-- The right scales' block at `t`: rows `j·1024 …` of the one column. -/
theorem sb_block (c : Dev nD) (t : Fin cfg0.N) (q : Fin 1024) :
    (iblk m c 3 t : Vec Ideal S1024x1 .f32) (ix2 q 0) = Dequant.ext (sb m c) (t.val / 4 % 4 * 1024 + q.val) 0 := by
  have hN : t.val < 128 := lt_of_lt_of_eq t.isLt (show cfg0.N = 128 from N_0)
  have hq := q.isLt
  rw [Dequant.ext_eq (sb m c) _ _ (by omega) (by omega)]
  unfold iblk
  rw [View.read_apply]
  show V m c main_v17 _ = V m c main_v17 _
  congr 1
  funext a
  apply Fin.ext
  match a with
  | ⟨0, _⟩ => show win0_3.index t 0 * 1024 + 1 * q.val = t.val / 4 % 4 * 1024 + q.val; rw [(idx_sb t).1]; omega
  | ⟨1, _⟩ => show win0_3.index t 1 * 1 + 1 * 0 = 0; rw [(idx_sb t).2]

/-- The blocks under names of their literal types. -/
abbrev ablk (c : Dev nD) (t : Fin cfg0.N) : Vec Ideal S1024x1024 .bf16 := iblk m c 0 t
abbrev bblk (c : Dev nD) (t : Fin cfg0.N) : Vec Ideal S1024x1024 .bf16 := iblk m c 1 t
abbrev sablk (c : Dev nD) (t : Fin cfg0.N) : Vec Ideal S1024x1 .f32 := iblk m c 2 t
abbrev sbblk (c : Dev nD) (t : Fin cfg0.N) : Vec Ideal S1024x1 .f32 := iblk m c 3 t

/-- The inner-product terms of the rows that entry (p, q) of block (i, j) stands for. -/
abbrev terms (c : Dev nD) (n : ℕ) (p q : Fin 1024) : ℕ → EReal :=
  Dequant.term (qa m c) (qb m c) (n / 16 * 1024 + p.val) (n / 4 % 4 * 1024 + q.val)

/-- At point `t` the product of the two blocks' entries (p, κ) and (q, κ) is term `k·1024 + κ`. -/
theorem block_terms (c : Dev nD) (t : Fin cfg0.N) (p q κ : Fin 1024) :
    ablk m c t (ix2 p κ) * bblk m c t (ix2 q κ) = terms m c t.val p q (t.val % 4 * 1024 + κ.val) := by
  show _ = Dequant.ext _ _ _ * Dequant.ext _ _ _
  rw [← qa_block m c t p κ, ← qb_block m c t q κ]

/-- One accumulation step adds one block of terms. -/
theorem step_entry (a b : Vec Ideal S1024x1024 .bf16) (acc : Vec Ideal S1024x1024 .f32) (f : ℕ → EReal) (kb : ℕ)
    (p q : Fin 1024) (hab : ∀ κ : Fin 1024, a (ix2 p κ) * b (ix2 q κ) = f (kb * 1024 + κ.val)) :
    k0_pay2 (F := Ideal) a b acc (ix2 p q) = acc (ix2 p q) + BlockSum.block f 1024 kb := by
  rw [Payload.prod_apply]
  unfold BlockSum.block
  exact congrArg (acc (ix2 p q) + ·) (Finset.sum_congr rfl fun κ _ => hab κ)

/-- After the body at a reset point (k = 0) the accumulator holds block 0. -/
theorem acc_reset (c : Dev nD) (n : ℕ) (hn : n < cfg0.N) (h0 : n % 4 = 0) (p q : Fin 1024) :
    (outsAt0 m c n hn).2 (ix2 p q) = BlockSum.block (terms m c n p q) 1024 (n % 4) := by
  have h0' : (⟨n, hn⟩ : Fin cfg0.N).val % 4 = 0 := h0
  have h1' : ¬(⟨n, hn⟩ : Fin cfg0.N).val % 4 = 3 := by dsimp only; omega
  rw [outsAt0_A m c ⟨n, hn⟩ h0' h1']
  dsimp only
  rw [Pieces.acc_first]
  rw [step_entry (ablk m c ⟨n, hn⟩) (bblk m c ⟨n, hn⟩) (k0_pay1 (F := Ideal)) (terms m c n p q) (n % 4) p q
    (fun κ => block_terms m c ⟨n, hn⟩ p q κ)]
  rw [Payload.zero_apply, zero_add]

/-- After the body at any other point the accumulator holds what the point before left, plus block k. -/
theorem acc_step (c : Dev nD) (n : ℕ) (hn : n + 1 < cfg0.N) (h0 : ¬(n + 1) % 4 = 0) (p q : Fin 1024) :
    (outsAt0 m c (n + 1) hn).2 (ix2 p q)
      = (outsAt0 m c n (Nat.lt_of_succ_lt hn)).2 (ix2 p q) + BlockSum.block (terms m c (n + 1) p q) 1024 ((n + 1) % 4) := by
  have h0' : ¬(⟨n + 1, hn⟩ : Fin cfg0.N).val % 4 = 0 := h0
  by_cases h1 : (n + 1) % 4 = 3
  · have h1' : (⟨n + 1, hn⟩ : Fin cfg0.N).val % 4 = 3 := h1
    rw [outsAt0_C m c ⟨n + 1, hn⟩ h0' h1']
    dsimp only
    rw [Pieces.acc_last]
    exact step_entry (ablk m c ⟨n + 1, hn⟩) (bblk m c ⟨n + 1, hn⟩) (outsAt0 m c n (Nat.lt_of_succ_lt hn)).2 (terms m c (n + 1) p q) ((n + 1) % 4) p q
      (fun κ => block_terms m c ⟨n + 1, hn⟩ p q κ)
  · have h1' : ¬(⟨n + 1, hn⟩ : Fin cfg0.N).val % 4 = 3 := h1
    rw [outsAt0_B m c ⟨n + 1, hn⟩ h0' h1']
    dsimp only
    rw [Pieces.acc_middle]
    exact step_entry (ablk m c ⟨n + 1, hn⟩) (bblk m c ⟨n + 1, hn⟩) (outsAt0 m c n (Nat.lt_of_succ_lt hn)).2 (terms m c (n + 1) p q) ((n + 1) % 4) p q
      (fun κ => block_terms m c ⟨n + 1, hn⟩ p q κ)

/-- THE ACCUMULATOR after the body at point `n`: blocks 0 … k of the inner product, k = n mod 4. -/
theorem acc_eq (c : Dev nD) : ∀ (n : ℕ) (hn : n < cfg0.N) (p q : Fin 1024),
    (outsAt0 m c n hn).2 (ix2 p q) = BlockSum.partialBlocks (terms m c n p q) 1024 (n % 4)
  | 0, hn, p, q => by
    rw [acc_reset m c 0 hn rfl p q]
    exact (BlockSum.partialBlocks_zero _ _).symm
  | n + 1, hn, p, q => by
    by_cases h0 : (n + 1) % 4 = 0
    · rw [acc_reset m c (n + 1) hn h0 p q, h0]
      exact (BlockSum.partialBlocks_zero _ _).symm
    · rw [acc_step m c n hn h0 p q, acc_eq c n (Nat.lt_of_succ_lt hn) p q]
      have e1 : (n + 1) / 16 = n / 16 := by omega
      have e2 : (n + 1) / 4 % 4 = n / 4 % 4 := by omega
      have e3 : (n + 1) % 4 = n % 4 + 1 := by omega
      have et : terms m c (n + 1) p q = terms m c n p q := by
        show Dequant.term _ _ _ _ = Dequant.term _ _ _ _
        rw [e1, e2]
      rw [et, e3, BlockSum.partialBlocks_succ]

/-- At a last step (k = 3) the output block is the accumulator scaled by the two scale blocks. -/
theorem out_scaled (c : Dev nD) (t : Fin cfg0.N) (h0 : ¬t.val % 4 = 0) (h1 : t.val % 4 = 3) :
    (outsAt0 m c t.val t.isLt).1 = k0_pay3 (F := Ideal) (sablk m c t) (sbblk m c t) (outsAt0 m c t.val t.isLt).2 := by
  rw [outsAt0_C m c t h0 h1]
  dsimp only
  rw [Pieces.out_last, Pieces.acc_last]

/-- WHAT A LAST-STEP POINT WRITES BACK is its block of the dequantized product. -/
theorem flushed_eq (c : Dev nD) (t : Fin cfg0.N) (hf : (cfg0.win 4).flush t = true) :
    (dats m 0 c).flushed 4 t
      = ((cfg0.win 4).blk t).view.read (Elt Ideal) (Dequant.deq (qa m c) (qb m c) (sa m c) (sb m c)) := by
  have hN : t.val < 128 := lt_of_lt_of_eq t.isLt (show cfg0.N = 128 from N_0)
  have h1 : t.val % 4 = 3 := (flush0_4 t).mp hf
  have h0 : ¬t.val % 4 = 0 := by omega
  rw [Value.flushed4, out_scaled m c t h0 h1]
  funext j
  obtain ⟨p, q, rfl⟩ : ∃ (p q : Fin 1024), j = ix2 p q := ⟨j 0, j 1, eq_ix2 j⟩
  have hp := p.isLt
  have hq := q.isLt
  show k0_pay3 (F := Ideal) (sablk m c t) (sbblk m c t) (outsAt0 m c t.val t.isLt).2 (ix2 p q)
    = Dequant.deq (qa m c) (qb m c) (sa m c) (sb m c) (((cfg0.win 4).blk t).view.emb (ix2 p q))
  rw [Payload.scale_apply, acc_eq m c t.val t.isLt p q, h1]
  have hr : (((cfg0.win 4).blk t).view.emb (ix2 p q)) 0 = (⟨t.val / 16 * 1024 + p.val, by omega⟩ : Fin 8192) :=
    Fin.ext (by show win0_4.index t 0 * 1024 + 1 * p.val = t.val / 16 * 1024 + p.val; rw [(idx_out t).1]; omega)
  have hc : (((cfg0.win 4).blk t).view.emb (ix2 p q)) 1 = (⟨t.val / 4 % 4 * 1024 + q.val, by omega⟩ : Fin 4096) :=
    Fin.ext (by show win0_4.index t 1 * 1024 + 1 * q.val = t.val / 4 % 4 * 1024 + q.val; rw [(idx_out t).2]; omega)
  unfold Dequant.deq
  rw [hr, hc]
  rw [show sablk m c t (ix2 p 0) = sa m c (ix2 ⟨t.val / 16 * 1024 + p.val, by omega⟩ 0) from
    (sa_block m c t p).trans (Dequant.ext_eq (sa m c) _ _ (by omega) (by omega))]
  rw [show sbblk m c t (ix2 q 0) = sb m c (ix2 ⟨t.val / 4 % 4 * 1024 + q.val, by omega⟩ 0) from
    (sb_block m c t q).trans (Dequant.ext_eq (sb m c) _ _ (by omega) (by omega))]
  rw [show BlockSum.partialBlocks (terms m c t.val p q) 1024 3
      = ∑ κ : Fin 4096, qa m c (ix2 ⟨t.val / 16 * 1024 + p.val, by omega⟩ κ) * qb m c (ix2 ⟨t.val / 4 % 4 * 1024 + q.val, by omega⟩ κ) from
    Dequant.blocks_total (qa m c) (qb m c) ⟨t.val / 16 * 1024 + p.val, by omega⟩ ⟨t.val / 4 % 4 * 1024 + q.val, by omega⟩]

/-- An index of the result is in point `t`'s output block iff each coordinate is in the block's range. -/
theorem mem_out_block (t : Fin cfg0.N) (i : S8192x4096.Idx) :
    i ∈ ((cfg0.win 4).blk t).view.set
      ↔ ∀ a : Fin 2, win0_4.index t a * S1024x1024.size a ≤ (i a).val ∧ (i a).val < win0_4.index t a * S1024x1024.size a + S1024x1024.size a := by
  show i ∈ ((View.whole main_v24).slice (win0_4.rect t)).set ↔ _
  rw [View.set_slice_whole, Rect.mem_set_unit]
  exact Iff.rfl

/-- Every index (r, c) of the result lies in the block that the last step of (r / 1024, c / 1024) writes back. -/
theorem covered (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  have hN : cfg0.N = 128 := N_0
  refine ⟨⟨(i 0).val / 1024 * 16 + (i 1).val / 1024 * 4 + 3, by omega⟩, (flush0_4 _).mpr (by dsimp only; omega), ?_⟩
  rw [mem_out_block]
  obtain ⟨e0, e1⟩ := idx_out ⟨(i 0).val / 1024 * 16 + (i 1).val / 1024 * 4 + 3, by omega⟩
  dsimp only at e0 e1
  intro a
  match a with
  | ⟨0, _⟩ =>
    show win0_4.index _ 0 * 1024 ≤ (i 0).val ∧ (i 0).val < win0_4.index _ 0 * 1024 + 1024
    rw [e0]; omega
  | ⟨1, _⟩ =>
    show win0_4.index _ 1 * 1024 ≤ (i 1).val ∧ (i 1).val < win0_4.index _ 1 * 1024 + 1024
    rw [e1]; omega

/-- THE RESULT ARRAY after the run: the dequantized product of the arrays the region found. -/
theorem final (c : Dev nD) :
    (dats m 0 c).arrAt 4 cfg0.N = Dequant.deq (qa m c) (qb m c) (sa m c) (sb m c) :=
  (dats m 0 c).arrAt_eq_of_cover 4 (Dequant.deq (qa m c) (qb m c) (sa m c) (sb m c)) (flushed_eq m c) covered

/-- The run, read: the result at the dequantized product, the arguments unchanged. -/
theorem run : θ_run defs (onTc (τ := τ) (main (F := Ideal))) ⟨m, fun _ => 0, ρ⟩ fun r => ∀ c : Dev nD,
      r.2.mem ((c : Thread nD τ).loc main_v24) = Dequant.deq (qa m c) (qb m c) (sa m c) (sb m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Tiles

end
-- ==== Proof.RefDequant.lean ====
/-
  The reference computes the dequantized product.

  After quantizing both operands row by row, the reference contracts the two quantized matrices over their second
  axes in one piece, multiplies row r by the left operand's scale for r (a column broadcast along the columns), and
  multiplies column c by the right operand's scale for c (a column turned into a row and broadcast along the rows).
  Read at an index (r, c) that is ((∑ κ, qa (r, κ) · qb (c, κ)) · sa (r, 0)) · sb (c, 0): the specification, with the
  four arrays the reference's own quantization stages.
-/
import proofs.«177226_j42520176230457_1_alg».proof.Proof.Gen.ReferenceIdeal.Read
import proofs.«177226_j42520176230457_1_alg».proof.Proof.Dequant

noncomputable section

open Idealize.ShloMosaic Idealize.ShloMosaic.ValueIdx

namespace Cert.ReferenceIdeal.RefDequant

open Cert.ReferenceIdeal Cert.ReferenceIdeal.Read

/-- The reference's result is the dequantized product of its quantized operands and their scales. -/
theorem result_eq (x0 : (⟨S8192x4096, .f32⟩ : BufTy).Contents (Elt Ideal)) (x1 : (⟨S4096x4096, .f32⟩ : BufTy).Contents (Elt Ideal)) :
    val_main_v27 (F := Ideal) x0 x1
      = Dequant.deq (val_main_v10 (F := Ideal) x0) (val_main_v21 (F := Ideal) x1) (val_main_v6 (F := Ideal) x0) (val_main_v17 (F := Ideal) x1) := by
  funext i
  have el : ∀ k : Fin 4096, lidx_main_v22 i k = ix2 (i 0) k := fun k => funext fun a => by
    match a with
    | ⟨0, _⟩ => rfl
    | ⟨1, _⟩ => rfl
  have er : ∀ k : Fin 4096, ridx_main_v22 i k = ix2 (i 1) k := fun k => funext fun a => by
    match a with
    | ⟨0, _⟩ => rfl
    | ⟨1, _⟩ => rfl
  have ea : idx_main_v23 i = ix2 (i 0) (0 : Fin 1) := funext fun a => by
    match a with
    | ⟨0, _⟩ => rfl
    | ⟨1, _⟩ => rfl
  have eb : idx_main_v25 (idx_main_v26 i) = ix2 (i 1) (0 : Fin 1) := funext fun a => by
    match a with
    | ⟨0, _⟩ => rfl
    | ⟨1, _⟩ => rfl
  rw [val_main_v27_apply, val_main_v24_apply, val_main_v22_apply, val_main_v23_apply, val_main_v26_apply, val_main_v25_apply]
  simp only [el, er, ea, eb]
  rfl

end Cert.ReferenceIdeal.RefDequant

end
-- ==== Proof.Bridge.lean ====
/-
  Both programs quantize alike.

  Before the tiled product runs, the kernel's program quantizes each operand on the host exactly as the reference does:
  per row, scale = max(max|row| / 127, 1e-8) and q = clip(round(x / scale), −128, 127). So the four arrays the
  kernel's region finds — the two quantized operands and the two scale columns — are the reference's own quantization
  stages of the same arguments; the kernel's extra narrowing of the quantized operands to bf16 is the identity over the
  extended reals. With that, the dequantized product the kernel ends with is the reference's result.
-/
import proofs.«177226_j42520176230457_1_alg».proof.Proof.Tiles
import proofs.«177226_j42520176230457_1_alg».proof.Proof.RefDequant
import Idealize.ShloMosaic.Lib.StableHlo.Run

noncomputable section

open Idealize.ShloMosaic Idealize.ShloMosaic.TcCoe Idealize.SL.Sem

namespace Cert.Proof.Bridge

open Cert.KernelIdeal Cert.KernelIdeal.Gen

variable (m : (ℓ : Loc nD τ sig) → Buf (Elt Ideal) ℓ)

set_option maxHeartbeats 2000000 in
/-- The quantized left operand the region finds is the reference's. -/
theorem qa_eq (c : Dev nD) :
    Tiles.qa m c = Cert.ReferenceIdeal.Read.val_main_v10 (F := Ideal) (m ((c : Thread nD τ).loc main_arg0)) := by
  show (V m c main_v22 : S8192x4096.Idx → EReal) = _
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

set_option maxHeartbeats 2000000 in
/-- The quantized right operand the region finds is the reference's. -/
theorem qb_eq (c : Dev nD) :
    Tiles.qb m c = Cert.ReferenceIdeal.Read.val_main_v21 (F := Ideal) (m ((c : Thread nD τ).loc main_arg1)) := by
  show (V m c main_v23 : S4096x4096.Idx → EReal) = _
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

set_option maxHeartbeats 2000000 in
/-- The left operand's row scales the region finds are the reference's. -/
theorem sa_eq (c : Dev nD) :
    Tiles.sa m c = Cert.ReferenceIdeal.Read.val_main_v6 (F := Ideal) (m ((c : Thread nD τ).loc main_arg0)) := by
  show (V m c main_v6 : S8192x1.Idx → EReal) = _
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

set_option maxHeartbeats 2000000 in
/-- The right operand's row scales the region finds are the reference's. -/
theorem sb_eq (c : Dev nD) :
    Tiles.sb m c = Cert.ReferenceIdeal.Read.val_main_v17 (F := Ideal) (m ((c : Thread nD τ).loc main_arg1)) := by
  show (V m c main_v17 : S4096x1.Idx → EReal) = _
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

/-- The kernel's result is the reference's result of the same arguments. -/
theorem result_eq (c : Dev nD) :
    Dequant.deq (Tiles.qa m c) (Tiles.qb m c) (Tiles.sa m c) (Tiles.sb m c)
      = Cert.ReferenceIdeal.Read.val_main_v27 (F := Ideal) (m ((c : Thread nD τ).loc main_arg0)) (m ((c : Thread nD τ).loc main_arg1)) := by
  rw [qa_eq, qb_eq, sa_eq, sb_eq, Cert.ReferenceIdeal.RefDequant.result_eq]

end Cert.Proof.Bridge

end
-- ==== Proof.lean ====
/-
  Per-row symmetric int8 quantization of two matrices followed by their product, dequantized by the row scales:
  a tiled kernel against the plain reference.

  Both programs quantize the operands the same way on the host (Proof/Bridge.lean). The reference then contracts the
  quantized matrices in one piece and scales (Proof/RefDequant.lean). The kernel walks an 8 × 4 × 4 grid whose
  innermost axis cuts the contraction into four blocks of 1024, accumulating them in a scratch buffer that is reset at
  the first block and scaled into the output at the last (Proof/Pieces.lean: what a grid point leaves behind;
  Proof/Payload.lean: those values entry by entry; Proof/Tiles.lean: the accumulator along the grid and the result
  array). Four blocks of 1024 terms are the 4096 terms of the inner product in another grouping (Proof/BlockSum.lean),
  which is the only law that joins the two sides (Proof/Dequant.lean states the common result); it holds in any
  additive commutative monoid, so the inputs' finiteness is never used.

  The three frames are the generated ones (the reference's is its generated run with the result dropped); the
  idealization rewrote nothing, so `preserves` is trivial.
-/
import proofs.«177226_j42520176230457_1_alg».proof.Defs
import proofs.«177226_j42520176230457_1_alg».proof.Proof.Gen.Kernel
import proofs.«177226_j42520176230457_1_alg».proof.Proof.Gen.Kernel.Skeleton
import proofs.«177226_j42520176230457_1_alg».proof.Proof.Gen.Kernel.Launch
import proofs.«177226_j42520176230457_1_alg».proof.Proof.Gen.Kernel.Points
import proofs.«177226_j42520176230457_1_alg».proof.Proof.Gen.Kernel.Frame
import proofs.«177226_j42520176230457_1_alg».proof.Proof.Gen.KernelIdeal
import proofs.«177226_j42520176230457_1_alg».proof.Proof.Gen.KernelIdeal.Skeleton
import proofs.«177226_j42520176230457_1_alg».proof.Proof.Gen.KernelIdeal.Launch
import proofs.«177226_j42520176230457_1_alg».proof.Proof.Gen.KernelIdeal.Points
import proofs.«177226_j42520176230457_1_alg».proof.Proof.Gen.KernelIdeal.Frame
import proofs.«177226_j42520176230457_1_alg».proof.Proof.Gen.ReferenceIdeal
import proofs.«177226_j42520176230457_1_alg».proof.Proof.Gen.Pre_finite_inputs
import proofs.«177226_j42520176230457_1_alg».proof.Proof.Gen.KernelIdeal.Value
import proofs.«177226_j42520176230457_1_alg».proof.Proof.Gen.ReferenceIdeal.Run
import proofs.«177226_j42520176230457_1_alg».proof.Proof.Gen.ReferenceIdeal.Read
import proofs.«177226_j42520176230457_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Over the extended reals the kernel's result array ends at the dequantized product of the quantized operands it
    finds, the reference's at its own last stage; from arguments that agree these are one array. -/
theorem algebraic : Cert.algebraic_KernelIdeal_ReferenceIdeal := by
  intro m ρ m' ρ' _ hagree
  refine ⟨fun c => Dequant.deq (Cert.KernelIdeal.Tiles.qa m c) (Cert.KernelIdeal.Tiles.qb m c) (Cert.KernelIdeal.Tiles.sa m c) (Cert.KernelIdeal.Tiles.sb m c),
    Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, (hagree c).1, (hagree c).2]
  exact (Bridge.result_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
